-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x512 : Shape := ⟨3, ![16, 256, 512]⟩
abbrev S16x512x2048 : Shape := ⟨3, ![16, 512, 2048]⟩
abbrev S_ : Shape := ⟨0, ![]⟩

class Facts : Prop where
  bcast_S_S16x256x512 : S_.BroadcastsInDim S16x256x512 (![] : Fin 0 → Fin S16x256x512.rank)
  reducesTo_S16x256x512_S_d0_1_2 : S16x256x512.ReducesTo [0, 1, 2] S_
  h_S_ : 0 < S_.numel
  bcast_S_S16x512x2048 : S_.BroadcastsInDim S16x512x2048 (![] : Fin 0 → Fin S16x512x2048.rank)
  reducesTo_S16x512x2048_S_d0_1_2 : S16x512x2048.ReducesTo [0, 1, 2] S_

variable [Facts]

def fn {F : FTy → Type} [FloatOps F] (main_arg0 : FVec F S16x256x512 .f32) (main_arg1 : FVec F S16x512x2048 .f32) : IVec S_ 1 :=
  let main_v0 : FVec F S16x256x512 .f32 := Host.absf main_arg0
  let main_cst : FVec F S_ .f32 := constant S_ .f32 0x7F800000#32
  let main_v1 : FVec F S16x256x512 .f32 := broadcastInDim S16x256x512 ![] bcast_S_S16x256x512 main_cst
  let main_v2 : IVec S16x256x512 1 := cmpf .olt main_v0 main_v1
  let main_c : IVec S_ 1 := constantI S_ 1 1#1
  let main_v3 : IVec S_ 1 := (fun x v => Host.reduce IntOp.andi x v reducesTo_S16x256x512_S_d0_1_2 h_S_) main_v2 main_c
  let main_v4 : FVec F S16x512x2048 .f32 := Host.absf main_arg1
  let main_cst_0 : FVec F S_ .f32 := constant S_ .f32 0x7F800000#32
  let main_v5 : FVec F S16x512x2048 .f32 := broadcastInDim S16x512x2048 ![] bcast_S_S16x512x2048 main_cst_0
  let main_v6 : IVec S16x512x2048 1 := cmpf .olt main_v4 main_v5
  let main_c_1 : IVec S_ 1 := constantI S_ 1 1#1
  let main_v7 : IVec S_ 1 := (fun x v => Host.reduce IntOp.andi x v reducesTo_S16x512x2048_S_d0_1_2 h_S_) main_v6 main_c_1
  let main_v8 : IVec S_ 1 := andi main_v3 main_v7
  main_v8
-- ==== Kernel.lean ====
abbrev S16x256x512 : Shape := ⟨3, ![16, 256, 512]⟩
abbrev S16x512x2048 : Shape := ⟨3, ![16, 512, 2048]⟩
abbrev S16x256x2048 : Shape := ⟨3, ![16, 256, 2048]⟩
abbrev S1x256x512 : Shape := ⟨3, ![1, 256, 512]⟩
abbrev S1x512x2048 : Shape := ⟨3, ![1, 512, 2048]⟩
abbrev S1x256x2048 : Shape := ⟨3, ![1, 256, 2048]⟩
abbrev S256x512 : Shape := ⟨2, ![256, 512]⟩
abbrev S512x2048 : Shape := ⟨2, ![512, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16x256x512, .f32⟩
  | .hbm, ⟨1, _⟩ => ⟨S16x512x2048, .f32⟩
  | .hbm, ⟨2, _⟩ => ⟨S16x256x2048, .f32⟩
  | .local _ .vmem, ⟨0, _⟩ => ⟨S1x256x512, .f32⟩
  | .local _ .vmem, ⟨1, _⟩ => ⟨S1x256x512, .f32⟩
  | .local _ .vmem, ⟨2, _⟩ => ⟨S1x512x2048, .f32⟩
  | .local _ .vmem, ⟨3, _⟩ => ⟨S1x512x2048, .f32⟩
  | .local _ .vmem, ⟨4, _⟩ => ⟨S1x256x2048, .f32⟩
  | .local _ .vmem, ⟨5, _⟩ => ⟨S1x256x2048, .f32⟩
  | _, _ => ⟨S16x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S16x256x512.size a
  hwx0_0 : ∀ i : grid0.Coords, EltTy.bits .f32 = 32 ∨ (Rect.block (s := S16x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S16x512x2048.size a
  hwx0_1 : ∀ i : grid0.Coords, EltTy.bits .f32 = 32 ∨ (Rect.block (s := S16x512x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S16x256x2048.size a
  hwx0_2 : ∀ i : grid0.Coords, EltTy.bits .f32 = 32 ∨ (Rect.block (s := S16x256x2048) S1x256x2048.size (cc0_transform_2 i) (hinb0_2 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x512 : Shape := ⟨3, ![16, 256, 512]⟩
abbrev S16x512x2048 : Shape := ⟨3, ![16, 512, 2048]⟩
abbrev S16x256x2048 : Shape := ⟨3, ![16, 256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16x256x512, .f32⟩
  | .hbm, ⟨1, _⟩ => ⟨S16x512x2048, .f32⟩
  | .hbm, ⟨2, _⟩ => ⟨S16x256x2048, .f32⟩
  | _, _ => ⟨S16x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16x256x512_S16x512x2048_S16x256x2048_2_1_1_2_0_0_wf : DotDims.WF S16x256x512 S16x512x2048 S16x256x2048 [2] [1] [1] [2] [0] [0]

variable [Facts₀]

def dot_S16x256x512_S16x512x2048_S16x256x2048_2_1_1_2_0_0 : DotDims S16x256x512 S16x512x2048 S16x256x2048 where
  lhsContracting := [2]
  rhsContracting := [1]
  lhsNonContracting := [1]
  rhsNonContracting := [2]
  lhsBatch := [0]
  rhsBatch := [0]
  wf := dot_S16x256x512_S16x512x2048_S16x256x2048_2_1_1_2_0_0_wf

class Facts : Prop extends Facts₀ where

variable [Facts]
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelPayload.lean ====
/-
  What the kernel body stores, read at an index.

  At a grid point the body loads a [1, 256, 512] block `v0` and a [1, 512, 2048] block `v3`, drops the unit axis of
  each, narrows both to bf16 (the identity at the ideal instance), multiplies the [256, 512] matrix by the [512, 2048]
  matrix into a zero accumulator, and puts the unit axis back. So the stored [1, 256, 2048] block holds, at `(u, p, q)`,
  the sum over `k` of `v0[0, p, k] · v3[0, k, q]`.
-/
import proofs.«139932_j46634754900528_1_alg».proof.Proof.Gen.KernelIdeal.Skeleton
import proofs.«139932_j46634754900528_1_alg».proof.Proof.LibDot2
import Idealize.ShloMosaic.Lib.Pipeline.Value
import Idealize.ShloMosaic.Lib.ValueIdx

noncomputable section

namespace Cert.KernelIdeal.Payload

open Cert.KernelIdeal Cert.KernelIdeal.Gen
open Idealize.ShloMosaic Idealize.ShloMosaic.ValueIdx

/-! ## The product's dimension numbers, coordinate by coordinate

The left operand's axis 0 is the output's row and its axis 1 is contracted; the right operand's axis 0 is contracted
and its axis 1 is the output's column. -/

theorem lhs_row (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl

theorem lhs_contracted (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q

theorem rhs_contracted (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q

theorem rhs_column (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-! ## Dropping the blocks' unit axis -/

/-- The left block with its unit axis dropped, at `(p, k)`, is the block at `(0, p, k)`. -/
theorem left_matrix (v0 : Vec Ideal S1x256x512 .f32) (p : Fin 256) (k : Fin 512) :
    shapeCast S256x512 v0 shapeCasts_S1x256x512_S256x512 (ix2 p k) = v0 (ix3 0 p k) := by
  refine (shapeCast_dropUnit_apply ![256, 512] v0 _ (ix2 p k)).trans (congrArg v0 ?_)
  funext a
  match a with
  | ⟨0, _⟩ => rfl
  | ⟨1, _⟩ => rfl
  | ⟨2, _⟩ => rfl

/-- The right block with its unit axis dropped, at `(k, q)`, is the block at `(0, k, q)`. -/
theorem right_matrix (v3 : Vec Ideal S1x512x2048 .f32) (k : Fin 512) (q : Fin 2048) :
    shapeCast S512x2048 v3 shapeCasts_S1x512x2048_S512x2048 (ix2 k q) = v3 (ix3 0 k q) := by
  refine (shapeCast_dropUnit_apply ![512, 2048] v3 _ (ix2 k q)).trans (congrArg v3 ?_)
  funext a
  match a with
  | ⟨0, _⟩ => rfl
  | ⟨1, _⟩ => rfl
  | ⟨2, _⟩ => rfl

/-! ## The stored block -/

/-- The stored block at `(u, p, q)`: row `p` of the left block's matrix against column `q` of the right block's. -/
theorem stored_apply (v0 : Vec Ideal S1x256x512 .f32) (v3 : Vec Ideal S1x512x2048 .f32) (u : Fin 1) (p : Fin 256) (q : Fin 2048) :
    k0_pay1 (F := Ideal) v0 v3 (ix3 u p q) = ∑ k : Fin 512, v0 (ix3 0 p k) * v3 (ix3 0 k q) := by
  unfold k0_pay1
  refine (shapeCast_addUnit_apply ![256, 2048] _ _ (ix3 u p q)).trans ?_
  have hj : (fun a : Fin 2 => (ix3 u p q : S1x256x2048.Idx) a.succ) = ix2 p q := funext fun a => by
    match a with
    | ⟨0, _⟩ => rfl
    | ⟨1, _⟩ => rfl
  refine (congrArg _ hj).trans ?_
  refine (Cert.Lib.Dot2.matmul_zero_ix2 dot_S256x512_S512x2048_S256x2048_1_0_0_1_n_n none rfl rfl lhs_row lhs_contracted rhs_contracted rhs_column _ _ p q).trans ?_
  refine Finset.sum_congr rfl fun k _ => ?_
  show shapeCast S256x512 v0 shapeCasts_S1x256x512_S256x512 (ix2 p k) * shapeCast S512x2048 v3 shapeCasts_S1x512x2048_S512x2048 (ix2 k q) = _
  rw [left_matrix, right_matrix]

end Cert.KernelIdeal.Payload

end
-- ==== Proof.BatchedProduct.lean ====
/-
  The batched matrix product over the extended reals.

  For `x` of shape [16, 256, 512] and `p` of shape [16, 512, 2048] the product has, in batch `b`, at row `d` and
  column `t`, the value  Σ_{e < 512} x[b, d, e] · p[b, e, t] : sixteen independent [256, 512] · [512, 2048]
  products, one per batch. Both programs of this certificate compute exactly this sum, in this order of the summands,
  so no law of the extended reals beyond reading each side at an index is needed to join them.
-/
import Idealize.ShloMosaic.Lib.ValueIdx

noncomputable section

namespace Cert.BatchedProduct

open Idealize.ShloMosaic Idealize.ShloMosaic.ValueIdx

/-- The batched product, entry by entry: batch `i 0`, row `i 1`, column `i 2`; the sum runs over the shared axis. -/
def bmm (x : (⟨3, ![16, 256, 512]⟩ : Shape).Idx → EReal) (p : (⟨3, ![16, 512, 2048]⟩ : Shape).Idx → EReal) :
    (⟨3, ![16, 256, 2048]⟩ : Shape).Idx → EReal :=
  fun i => ∑ e : Fin 512, x (ix3 (i 0 : Fin 16) (i 1 : Fin 256) e) * p (ix3 (i 0 : Fin 16) e (i 2 : Fin 2048))

/-- The product at explicit coordinates. -/
theorem bmm_ix3 (x : (⟨3, ![16, 256, 512]⟩ : Shape).Idx → EReal) (p : (⟨3, ![16, 512, 2048]⟩ : Shape).Idx → EReal)
    (b : Fin 16) (d : Fin 256) (t : Fin 2048) :
    bmm x p (ix3 b d t) = ∑ e : Fin 512, x (ix3 b d e) * p (ix3 b e t) := rfl

end Cert.BatchedProduct

end
-- ==== Proof.KernelArray.lean ====
/-
  The kernel's output array after the run is the batched product of its argument arrays.

  The grid has sixteen points, one per batch. At point `t` every window's block is slice `t` of its array along
  axis 0, whole along the other two axes: the left block is `x[t, :, :]`, the right block `p[t, :, :]`, and the block
  written back is `out[t, :, :]`. The body stores, at `(0, d, j)` of its output block, the sum over `e` of
  `x[t, d, e] · p[t, e, j]`, which is the batched product read through block `t`. The sixteen output blocks tile the
  output array (index `i` lies in block `i 0`), so the array ends holding the batched product everywhere.
-/
import proofs.«139932_j46634754900528_1_alg».proof.Proof.Gen.KernelIdeal.Value
import proofs.«139932_j46634754900528_1_alg».proof.Proof.KernelPayload
import proofs.«139932_j46634754900528_1_alg».proof.Proof.BatchedProduct

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.BatchedProduct
open Idealize.ShloMosaic.Pipeline (Dat)

variable (m : (ℓ : Loc nD τ sig) → Buf (Elt Ideal) ℓ) (ρ : Dev nD → PrngReg)

theorem origin : (![0, 0, 0] : Fin 3 → Nat) = fun _ => 0 := funext fun a => by fin_cases a <;> rfl

/-- Every window's block index at point `t` is `(t, 0, 0)`: decided over the sixteen points. -/
theorem block_indices : ∀ t : Fin cfg0.N, t.val < 16
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The body's stored block, when its two input blocks are slice `b` of two arrays, is slice `b` of their batched
    product: stated over plain blocks and arrays, to be used at a grid point's blocks. -/
theorem stored_is_slice (X0 : S16x256x512.Idx → EReal) (X1 : S16x512x2048.Idx → EReal)
    (x0 : Vec Ideal S1x256x512 .f32) (x1 : Vec Ideal S1x512x2048 .f32) (b : Fin 16)
    (h0 : ∀ (d : Fin 256) (e : Fin 512), x0 (ix3 0 d e) = X0 (ix3 b d e))
    (h1 : ∀ (e : Fin 512) (j : Fin 2048), x1 (ix3 0 e j) = X1 (ix3 b e j))
    (y : S1x256x2048.Idx) :
    k0_pay1 (F := Ideal) x0 x1 y = bmm X0 X1 (ix3 b (y 1 : Fin 256) (y 2 : Fin 2048)) := by
  obtain ⟨u, d, j, rfl⟩ : ∃ (u : Fin 1) (d : Fin 256) (j : Fin 2048), y = ix3 u d j := ⟨y 0, y 1, y 2, eq_ix3 y⟩
  rw [Cert.KernelIdeal.Payload.stored_apply, bmm_ix3]
  refine Finset.sum_congr rfl fun e _ => ?_
  rw [h0, h1]

/-- WHAT POINT `t` WRITES BACK is block `t` of the batched product of the argument arrays as the region finds them. -/
theorem flushed_eq (c : Dev nD) (t : Fin cfg0.N) :
    (dats m 0 c).flushed 2 t = ((cfg0.win 2).blk t).view.read (Elt Ideal) (bmm (V m c main_arg0) (V m c main_arg1)) := by
  rw [Value.flushed2]
  unfold out0_2
  rw [View.canon_unit_zero origin]
  simp only [View.ld_unit_zero (S := S1x256x512) origin, View.ld_unit_zero (S := S1x512x2048) origin]
  obtain ⟨ht, a00, a01, a02, a10, a11, a12, a20, a21, a22⟩ := block_indices t
  funext y
  show k0_pay1 (F := Ideal) (iblk m c 0 t) (iblk m c 1 t) y = bmm (V m c main_arg0) (V m c main_arg1) (((cfg0.win 2).blk t).view.emb y)
  refine (stored_is_slice (V m c main_arg0) (V m c main_arg1) (iblk m c 0 t) (iblk m c 1 t) ⟨t.val, ht⟩ ?_ ?_ y).trans (congrArg _ ?_)
  · intro d e
    show V m c main_arg0 (((cfg0.win 0).blk t).view.emb (ix3 0 d e)) = V m c main_arg0 _
    refine congrArg _ (funext fun a => Fin.ext ?_)
    match a with
    | ⟨0, _⟩ => show win0_0.index t (0 : Fin 3) * 1 + 1 * 0 = t.val; omega
    | ⟨1, _⟩ => show win0_0.index t (1 : Fin 3) * 256 + 1 * d.val = d.val; omega
    | ⟨2, _⟩ => show win0_0.index t (2 : Fin 3) * 512 + 1 * e.val = e.val; omega
  · intro e j
    show V m c main_arg1 (((cfg0.win 1).blk t).view.emb (ix3 0 e j)) = V m c main_arg1 _
    refine congrArg _ (funext fun a => Fin.ext ?_)
    match a with
    | ⟨0, _⟩ => show win0_1.index t (0 : Fin 3) * 1 + 1 * 0 = t.val; omega
    | ⟨1, _⟩ => show win0_1.index t (1 : Fin 3) * 512 + 1 * e.val = e.val; omega
    | ⟨2, _⟩ => show win0_1.index t (2 : Fin 3) * 2048 + 1 * j.val = j.val; omega
  · funext a
    apply Fin.ext
    have hy0 : (y 0).val < 1 := (y 0).isLt
    match a with
    | ⟨0, _⟩ => show t.val = win0_2.index t (0 : Fin 3) * 1 + 1 * (y 0).val; omega
    | ⟨1, _⟩ => show (y 1).val = win0_2.index t (1 : Fin 3) * 256 + 1 * (y 1).val; omega
    | ⟨2, _⟩ => show (y 2).val = win0_2.index t (2 : Fin 3) * 2048 + 1 * (y 2).val; omega

/-- An index of the output array is in point `t`'s block iff each coordinate is in the block's range on its axis. -/
theorem mem_block (t : Fin cfg0.N) (i : S16x256x2048.Idx) :
    i ∈ ((cfg0.win 2).blk t).view.set ↔ ∀ a : Fin 3, win0_2.index t a * S1x256x2048.size a ≤ (i a).val ∧ (i a).val < win0_2.index t a * S1x256x2048.size a + S1x256x2048.size a := by
  show i ∈ ((View.whole main_v0).slice (win0_2.rect t)).set ↔ _
  rw [View.set_slice_whole, Rect.mem_set_unit]
  exact Iff.rfl

/-- The sixteen output blocks tile the output array: index `i` lies in the block of point `i 0`. -/
theorem covered (i : S16x256x2048.Idx) :
    ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 2048 := (i 2).isLt
  refine ⟨⟨(i 0).val, hi0⟩, flush0_2 _, ?_⟩
  obtain ⟨-, -, -, -, -, -, -, a20, a21, a22⟩ := block_indices ⟨(i 0).val, hi0⟩
  have b20 : win0_2.index ⟨(i 0).val, hi0⟩ (0 : Fin 3) = (i 0).val := a20
  rw [mem_block]
  intro a
  match a with
  | ⟨0, _⟩ => show win0_2.index ⟨(i 0).val, hi0⟩ (0 : Fin 3) * 1 ≤ (i 0).val ∧ (i 0).val < win0_2.index ⟨(i 0).val, hi0⟩ (0 : Fin 3) * 1 + 1; omega
  | ⟨1, _⟩ => show win0_2.index ⟨(i 0).val, hi0⟩ (1 : Fin 3) * 256 ≤ (i 1).val ∧ (i 1).val < win0_2.index ⟨(i 0).val, hi0⟩ (1 : Fin 3) * 256 + 256; omega
  | ⟨2, _⟩ => show win0_2.index ⟨(i 0).val, hi0⟩ (2 : Fin 3) * 2048 ≤ (i 2).val ∧ (i 2).val < win0_2.index ⟨(i 0).val, hi0⟩ (2 : Fin 3) * 2048 + 2048; omega

/-- THE OUTPUT ARRAY after the run: the batched product of the argument arrays as launched. -/
theorem final (c : Dev nD) :
    (dats m 0 c).arrAt 2 cfg0.N = bmm (m ((c : Thread nD τ).loc main_arg0)) (m ((c : Thread nD τ).loc main_arg1)) :=
  (dats m 0 c).arrAt_eq_of_cover 2 (bmm (V m c main_arg0) (V m c main_arg1)) (fun t _ => flushed_eq m c t) covered

/-- The run, read: the result array ends at the batched product of the arguments, the arguments unchanged. -/
theorem run : θ_run defs (onTc (τ := τ) (main (F := Ideal))) ⟨m, fun _ => 0, ρ⟩ fun r => ∀ c : Dev nD,
      r.2.mem ((c : Thread nD τ).loc main_v0) = bmm (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceValue.lean ====
/-
  The reference's result is the batched product.

  The reference is one `dot_general` with batch axis 0 on both operands, contracting the left operand's axis 2 with
  the right operand's axis 1. Read at an index `(b, d, t)` at the ideal instance it is the sum over `e` of
  `x[b, d, e] · p[b, e, t]`; the index functions under the sum are the coordinate triples of the specification.
-/
import proofs.«139932_j46634754900528_1_alg».proof.Proof.Gen.ReferenceIdeal.Read
import proofs.«139932_j46634754900528_1_alg».proof.Proof.BatchedProduct

noncomputable section

namespace Cert.ReferenceIdeal.RefValue

open Cert.ReferenceIdeal Cert.ReferenceIdeal.Gen Cert.ReferenceIdeal.Read
open Idealize.ShloMosaic Idealize.ShloMosaic.ValueIdx Cert.BatchedProduct

/-- The left operand is read in batch `i 0`, row `i 1`, at the summation index. -/
theorem left_index (i : S16x256x2048.Idx) (k : Fin 512) : lidx_main_v0 i k = ix3 (i 0 : Fin 16) (i 1 : Fin 256) k :=
  funext fun a => Fin.ext (by
    match a with
    | ⟨0, _⟩ => rfl
    | ⟨1, _⟩ => rfl
    | ⟨2, _⟩ => rfl)

/-- The right operand is read in batch `i 0`, at the summation index, column `i 2`. -/
theorem right_index (i : S16x256x2048.Idx) (k : Fin 512) : ridx_main_v0 i k = ix3 (i 0 : Fin 16) k (i 2 : Fin 2048) :=
  funext fun a => Fin.ext (by
    match a with
    | ⟨0, _⟩ => rfl
    | ⟨1, _⟩ => rfl
    | ⟨2, _⟩ => rfl)

/-- The reference's one stage, at the ideal instance, is the batched product of its operands. -/
theorem stage_is_bmm (x0 : (⟨S16x256x512, .f32⟩ : BufTy).Contents (Elt Ideal)) (x1 : (⟨S16x512x2048, .f32⟩ : BufTy).Contents (Elt Ideal)) :
    val_main_v0 (F := Ideal) x0 x1 = bmm x0 x1 := by
  funext i
  rw [val_main_v0_apply]
  show _ = ∑ e : Fin 512, x0 (ix3 (i 0 : Fin 16) (i 1 : Fin 256) e) * x1 (ix3 (i 0 : Fin 16) e (i 2 : Fin 2048))
  refine Finset.sum_congr rfl fun k _ => ?_
  rw [left_index, right_index]
  rfl

end Cert.ReferenceIdeal.RefValue

end
-- ==== Proof.lean ====
/-
  The kernel and its reference compute one batched matrix product.

  The kernel runs a grid of sixteen points, one per batch; at point `b` its body multiplies the [256, 512] slice
  `x[b]` by the [512, 2048] slice `path[b]` into a zero accumulator (after narrowing both to bf16, which at the ideal
  instance is the identity) and writes the [256, 2048] result as slice `b` of the output. The reference is one
  `dot_general` with batch axis 0, contracting `x`'s last axis with `path`'s middle axis. Over the extended reals both
  results are, at `(b, d, t)`, the sum over `e` of `x[b, d, e] · path[b, e, t]`, with the summands in the same order:
  `Cert.BatchedProduct.bmm`. The kernel's side is `Cert.KernelIdeal.ArrayValue.run` (the body's stored block read at an
  index, then the sixteen blocks tiling the output array), the reference's side
  `Cert.ReferenceIdeal.RefValue.stage_is_bmm`. The equality needs no finiteness of the inputs. The ideal pass rewrote
  nothing, so the idealization claim is trivial; the three frames are the generated frame runs.
-/
import proofs.«139932_j46634754900528_1_alg».proof.Defs
import proofs.«139932_j46634754900528_1_alg».proof.Proof.Gen.Kernel
import proofs.«139932_j46634754900528_1_alg».proof.Proof.Gen.Kernel.Skeleton
import proofs.«139932_j46634754900528_1_alg».proof.Proof.Gen.Kernel.Launch
import proofs.«139932_j46634754900528_1_alg».proof.Proof.Gen.Kernel.Points
import proofs.«139932_j46634754900528_1_alg».proof.Proof.Gen.Kernel.Frame
import proofs.«139932_j46634754900528_1_alg».proof.Proof.Gen.KernelIdeal
import proofs.«139932_j46634754900528_1_alg».proof.Proof.Gen.KernelIdeal.Skeleton
import proofs.«139932_j46634754900528_1_alg».proof.Proof.Gen.KernelIdeal.Launch
import proofs.«139932_j46634754900528_1_alg».proof.Proof.Gen.KernelIdeal.Points
import proofs.«139932_j46634754900528_1_alg».proof.Proof.Gen.KernelIdeal.Frame
import proofs.«139932_j46634754900528_1_alg».proof.Proof.Gen.ReferenceIdeal
import proofs.«139932_j46634754900528_1_alg».proof.Proof.Gen.Pre_finite_inputs
import proofs.«139932_j46634754900528_1_alg».proof.Proof.Gen.KernelIdeal.Value
import proofs.«139932_j46634754900528_1_alg».proof.Proof.Gen.ReferenceIdeal.Run
import proofs.«139932_j46634754900528_1_alg».proof.Proof.Gen.ReferenceIdeal.Read
import proofs.«139932_j46634754900528_1_alg».proof.Proof.KernelArray
import proofs.«139932_j46634754900528_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The reference runs and keeps its arguments: its run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the batched product of the arguments in their
    result array: the kernel's by its blocks, the reference's by its one stage read at an index. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.stage_is_bmm, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
